-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S_ : Shape := ⟨0, ![]⟩
abbrev S32x2048x1 : Shape := ⟨3, ![32, 2048, 1]⟩
abbrev S32x2048x63 : Shape := ⟨3, ![32, 2048, 63]⟩
abbrev S32x2048x128 : Shape := ⟨3, ![32, 2048, 128]⟩
abbrev S1x1024x64 : Shape := ⟨3, ![1, 1024, 64]⟩
abbrev S1x2048x64 : Shape := ⟨3, ![1, 2048, 64]⟩
abbrev S1x2048x128 : Shape := ⟨3, ![1, 2048, 128]⟩
abbrev S1024x64 : Shape := ⟨2, ![1024, 64]⟩
abbrev S2048x64 : Shape := ⟨2, ![2048, 64]⟩
abbrev S1024x2048 : Shape := ⟨2, ![1024, 2048]⟩
abbrev S2048x128 : Shape := ⟨2, ![2048, 128]⟩
abbrev S1024x128 : Shape := ⟨2, ![1024, 128]⟩
abbrev S1024x1 : Shape := ⟨2, ![1024, 1]⟩

abbrev nBuf : Space → Nat
  | .hbm => 16
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .bf16⟩
  | .hbm, ⟨5, _⟩ => ⟨S32x2048x64, .f32⟩
  | .hbm, ⟨6, _⟩ => ⟨S32x2048x64, .bf16⟩
  | .hbm, ⟨7, _⟩ => ⟨S32x2048x64, .f32⟩
  | .hbm, ⟨8, _⟩ => ⟨S_, .f32⟩
  | .hbm, ⟨9, _⟩ => ⟨S32x2048x1, .f32⟩
  | .hbm, ⟨10, _⟩ => ⟨S_, .f32⟩
  | .hbm, ⟨11, _⟩ => ⟨S32x2048x63, .f32⟩
  | .hbm, ⟨12, _⟩ => ⟨S32x2048x128, .f32⟩
  | .hbm, ⟨13, _⟩ => ⟨S32x2048x128, .bf16⟩
  | .hbm, ⟨14, _⟩ => ⟨S32x2048x64, .f32⟩
  | .hbm, ⟨15, _⟩ => ⟨S2x16x2048x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1024x64, .f32⟩
  | .local _ .vmem, ⟨7, _⟩ => ⟨S1x1024x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x64_S32x2048x64 : S2x16x2048x64.ShapeCasts S32x2048x64
  bitsLt_bf16_f32 : FTy.bits .bf16 < FTy.bits .f32
  bcast_S_S32x2048x1 : S_.BroadcastsInDim S32x2048x1 (![] : Fin 0 → Fin S32x2048x1.rank)
  bcast_S_S32x2048x63 : S_.BroadcastsInDim S32x2048x63 (![] : Fin 0 → Fin S32x2048x63.rank)
  concatenates_S32x2048x64_S32x2048x1_S32x2048x63_S32x2048x128_d2 : Shape.Concatenates [S32x2048x64, S32x2048x1, S32x2048x63] S32x2048x128 2
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S1024x128_o0_64_S1024x1 : S1024x128.Slices ![0, 64] S1024x1
  slices_S1024x128_o0_0_S1024x64 : S1024x128.Slices ![0, 0] S1024x64
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  dot_S1024x64_S2048x64_S1024x2048_1_1_0_0_n_n_wf : DotDims.WF S1024x64 S2048x64 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .bf16 = 32 ∨ (Rect.block (s := S32x2048x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x128.size a
  hwx0_2 : ∀ i : grid0.Coords, EltTy.bits .bf16 = 32 ∨ (Rect.block (s := S32x2048x128) S1x2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v1) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 11
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S2x16x2048x2048, .f32⟩
  | .hbm, ⟨5, _⟩ => ⟨S_, .f32⟩
  | .hbm, ⟨6, _⟩ => ⟨S2x16x2048, .f32⟩
  | .hbm, ⟨7, _⟩ => ⟨S2x16x2048x1, .f32⟩
  | .hbm, ⟨8, _⟩ => ⟨S2x16x2048x2048, .f32⟩
  | .hbm, ⟨9, _⟩ => ⟨S2x16x2048x2048, .f32⟩
  | .hbm, ⟨10, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BitsFrame.lean ====
/-
  The kernel program as printed runs to the end and leaves its three argument arrays as they were; and the run names what
  every array of the launch holds afterwards.

  The program is: eleven host operations (three reshapes [2,16,2048,64] → [32,2048,64], the changes of format, and the
  128-wide array made by concatenating the third argument, a column of ones and 63 columns of zeros), ONE launch over the
  grid 32 × 2, and one reshape of the launch's result back to [2,16,2048,64].  At grid point (bh, qi) the body reads the
  (1024 × 64) block qi of slice bh of the first array and the whole slices bh of the second and third, and stores ONE
  (1024 × 64) block: the payload `k0_pay1` of the three blocks.  The second and third windows are fetched only when bh
  moves; between fetches the staging buffer still holds the block, because the body leaves its inputs in place.

  Everything is stated at an arbitrary float instance `F`.
-/
import proofs.«403997_j58085137711581_3_alg».proof.Proof.Gen.Kernel.Launch
import proofs.«403997_j58085137711581_3_alg».proof.Proof.Gen.Kernel.Skeleton
import proofs.«403997_j58085137711581_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- What core `c`'s buffers hold when the launch starts: the eleven host operations folded over the launch memory. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host prefix, the launch, and the closing reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches only a launch array and a buffer that bypasses the launch, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the four launch arrays (it writes the program's result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes an argument: the launch finds each as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-- Nor does the closing reshape: each argument ends as it was. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The blocks -/

/-- Window `w`'s block at grid point `t`, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds the input's block at every point, fetched there or not: where it is not fetched the
    block index has not moved, and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end of a run -/

/-- A run that ends with every bypassing buffer at what the closing reshape leaves ends with the three arguments as they
    were: they bypass the launch and no host line writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body -/

abbrev rq : Rect S1x1024x64 := Rect.unit (s := S1x1024x64) ![0, 0, 0] S1x1024x64.size inb_S1x1024x64_S1x1024x64_0_0_0
abbrev rk : Rect S1x2048x64 := Rect.unit (s := S1x2048x64) ![0, 0, 0] S1x2048x64.size inb_S1x2048x64_S1x2048x64_0_0_0
abbrev rv : Rect S1x2048x128 := Rect.unit (s := S1x2048x128) ![0, 0, 0] S1x2048x128.size inb_S1x2048x128_S1x2048x128_0_0_0

/-- What the output's staging buffer holds after the body: its one store, the payload of the three input blocks, laid
    over the whole buffer. -/
def outBlock (x0 : Vec F S1x1024x64 .bf16) (x1 : Vec F S1x2048x64 .bf16) (x2 : Vec F S1x2048x128 .bf16) : Vec F S1x1024x64 .f32 :=
  View.canon [⟨rq, k0_pay1 (View.ld x0 rq) (View.ld x1 rk) (View.ld x2 rv)⟩]

/-- The store's rectangle is the whole buffer. -/
theorem outCover (p0 : Vec F S1x1024x64 .f32) (y : S1x1024x64.Idx) :
    ∃ pc ∈ ([⟨rq, p0⟩] : List (View.Piece (Elt F) S1x1024x64 .f32)), y ∈ pc.1.set :=
  View.cover_of_tiled [⟨rq, p0⟩] S1x1024x64.size (by rfl) y

set_option maxHeartbeats 1000000 in
/-- The body on whole staging buffers, the inputs' at contents `x0`, `x1`, `x2` and the output's at anything, returns with
    the inputs' as they were and the output's at `outBlock` of them. -/
theorem sound_kernel (c : Dev nD) (E : Set ℕ) (i : grid0.Coords)
    (arg2 : Memref sig .tc .vmem S1x1024x64 .bf16) (harg2 : arg2.IsWhole) (arg3 : Memref sig .tc .vmem S1x2048x64 .bf16) (harg3 : arg3.IsWhole)
    (arg4 : Memref sig .tc .vmem S1x2048x128 .bf16) (harg4 : arg4.IsWhole) (arg5 : Memref sig .tc .vmem S1x1024x64 .f32) (harg5 : arg5.IsWhole)
    (x0 : Vec F S1x1024x64 .bf16) (x1 : Vec F S1x2048x64 .bf16) (x2 : Vec F S1x2048x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The launch's proof data -/

/-- After the body at point `t` each input's buffer holds its block and the output's holds `outBlock` of the three blocks;
    the arrays are what the launch finds; the body uses nothing else. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a grid point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, and in every final state each launch array holds what the
    write-backs put there and every other unscoped buffer what the closing reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Frm

end
-- ==== Proof.IdealFrame.lean ====
/-
  The idealized kernel program runs to the end and leaves its three argument arrays as they were; and the run names what
  every array of the launch holds afterwards.

  The program is: eleven host operations (three reshapes [2,16,2048,64] → [32,2048,64], the changes of format, and the
  128-wide array made by concatenating the third argument, a column of ones and 63 columns of zeros), ONE launch over the
  grid 32 × 2, and one reshape of the launch's result back to [2,16,2048,64].  At grid point (bh, qi) the body reads the
  (1024 × 64) block qi of slice bh of the first array and the whole slices bh of the second and third, and stores ONE
  (1024 × 64) block: the payload `k0_pay1` of the three blocks.  The second and third windows are fetched only when bh
  moves; between fetches the staging buffer still holds the block, because the body leaves its inputs in place.

  Everything is stated at an arbitrary float instance `F`.
-/
import proofs.«403997_j58085137711581_3_alg».proof.Proof.Gen.KernelIdeal.Launch
import proofs.«403997_j58085137711581_3_alg».proof.Proof.Gen.KernelIdeal.Skeleton
import proofs.«403997_j58085137711581_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- What core `c`'s buffers hold when the launch starts: the eleven host operations folded over the launch memory. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host prefix, the launch, and the closing reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches only a launch array and a buffer that bypasses the launch, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the four launch arrays (it writes the program's result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes an argument: the launch finds each as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-- Nor does the closing reshape: each argument ends as it was. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The blocks -/

/-- Window `w`'s block at grid point `t`, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds the input's block at every point, fetched there or not: where it is not fetched the
    block index has not moved, and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end of a run -/

/-- A run that ends with every bypassing buffer at what the closing reshape leaves ends with the three arguments as they
    were: they bypass the launch and no host line writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body -/

abbrev rq : Rect S1x1024x64 := Rect.unit (s := S1x1024x64) ![0, 0, 0] S1x1024x64.size inb_S1x1024x64_S1x1024x64_0_0_0
abbrev rk : Rect S1x2048x64 := Rect.unit (s := S1x2048x64) ![0, 0, 0] S1x2048x64.size inb_S1x2048x64_S1x2048x64_0_0_0
abbrev rv : Rect S1x2048x128 := Rect.unit (s := S1x2048x128) ![0, 0, 0] S1x2048x128.size inb_S1x2048x128_S1x2048x128_0_0_0

/-- What the output's staging buffer holds after the body: its one store, the payload of the three input blocks, laid
    over the whole buffer. -/
def outBlock (x0 : Vec F S1x1024x64 .bf16) (x1 : Vec F S1x2048x64 .bf16) (x2 : Vec F S1x2048x128 .bf16) : Vec F S1x1024x64 .f32 :=
  View.canon [⟨rq, k0_pay1 (View.ld x0 rq) (View.ld x1 rk) (View.ld x2 rv)⟩]

/-- The store's rectangle is the whole buffer. -/
theorem outCover (p0 : Vec F S1x1024x64 .f32) (y : S1x1024x64.Idx) :
    ∃ pc ∈ ([⟨rq, p0⟩] : List (View.Piece (Elt F) S1x1024x64 .f32)), y ∈ pc.1.set :=
  View.cover_of_tiled [⟨rq, p0⟩] S1x1024x64.size (by rfl) y

set_option maxHeartbeats 1000000 in
/-- The body on whole staging buffers, the inputs' at contents `x0`, `x1`, `x2` and the output's at anything, returns with
    the inputs' as they were and the output's at `outBlock` of them. -/
theorem sound_kernel (c : Dev nD) (E : Set ℕ) (i : grid0.Coords)
    (arg2 : Memref sig .tc .vmem S1x1024x64 .bf16) (harg2 : arg2.IsWhole) (arg3 : Memref sig .tc .vmem S1x2048x64 .bf16) (harg3 : arg3.IsWhole)
    (arg4 : Memref sig .tc .vmem S1x2048x128 .bf16) (harg4 : arg4.IsWhole) (arg5 : Memref sig .tc .vmem S1x1024x64 .f32) (harg5 : arg5.IsWhole)
    (x0 : Vec F S1x1024x64 .bf16) (x1 : Vec F S1x2048x64 .bf16) (x2 : Vec F S1x2048x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The launch's proof data -/

/-- After the body at point `t` each input's buffer holds its block and the output's holds `outBlock` of the three blocks;
    the arrays are what the launch finds; the body uses nothing else. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a grid point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, and in every final state each launch array holds what the
    write-backs put there and every other unscoped buffer what the closing reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Frm

end
-- ==== Proof.Spec.lean ====
/-
  Softmax attention without max-subtraction and without scaling, as plain functions on the extended reals.

  For one (batch, head) slice with queries q, keys k and values v (2048 rows of 64 entries each) the result's row s is
      out[s, d] = Σ_t  w[s,t] / (Σ_t' w[s,t']) · v[t, d],      w[s,t] = exp (Σ_e q[s,e] · k[t,e]).
  The kernel instead appends to v a column of ones (and 63 columns of zeros), forms  ext[s, c] = Σ_t w[s,t] · vext[t, c]
  in ONE product, and divides the first 64 columns by column 64, which is the row sum Σ_t w[s,t]:
      out[s, d] = (Σ_t w[s,t] · v[t,d]) / (Σ_t w[s,t] · 1).
  `blockOut` is that quotient for one stored block, `flatOut` the same over the flattened [32, 2048, ·] arrays, and
  `refOut` the reference's sum of quotients.  The two agree wherever q, k, v are real numbers: every
  weight is a positive real, so the row sum is a nonzero real and the division distributes over the finite sum.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

abbrev Arg : Shape := ⟨4, ![2, 16, 2048, 64]⟩
abbrev QBlk : Shape := ⟨3, ![1, 1024, 64]⟩
abbrev KBlk : Shape := ⟨3, ![1, 2048, 64]⟩
abbrev VBlk : Shape := ⟨3, ![1, 2048, 128]⟩
abbrev Flat : Shape := ⟨3, ![32, 2048, 64]⟩
abbrev FlatExt : Shape := ⟨3, ![32, 2048, 128]⟩

/-- Entry (r, d) of the block the body stores, from the query block, the key slice and the extended value slice. -/
def blockOut (x0 : QBlk.Idx → EReal) (x1 : KBlk.Idx → EReal) (x2 : VBlk.Idx → EReal) (r : Fin 1024) (d : Fin 64) : EReal :=
  Ideal.div
    (∑ t : Fin 2048, Ideal.exp (∑ e : Fin 64, x0 (ix3 (0 : Fin 1) r e) * x1 (ix3 (0 : Fin 1) t e)) * x2 (ix3 (0 : Fin 1) t (⟨d.val, by omega⟩ : Fin 128)))
    (∑ t : Fin 2048, Ideal.exp (∑ e : Fin 64, x0 (ix3 (0 : Fin 1) r e) * x1 (ix3 (0 : Fin 1) t e)) * x2 (ix3 (0 : Fin 1) t (⟨64, by omega⟩ : Fin 128)))

/-- The same quotient over the flattened arrays: slice bh, row s, column d. -/
def flatOut (Q K : Flat.Idx → EReal) (VE : FlatExt.Idx → EReal) (bh : Fin 32) (s : Fin 2048) (d : Fin 64) : EReal :=
  Ideal.div
    (∑ t : Fin 2048, Ideal.exp (∑ e : Fin 64, Q (ix3 bh s e) * K (ix3 bh t e)) * VE (ix3 bh t (⟨d.val, by omega⟩ : Fin 128)))
    (∑ t : Fin 2048, Ideal.exp (∑ e : Fin 64, Q (ix3 bh s e) * K (ix3 bh t e)) * VE (ix3 bh t (⟨64, by omega⟩ : Fin 128)))

/-- The reference: normalised weights times values, summed over the key rows. -/
def refOut (q k v : Arg.Idx → EReal) (b : Fin 2) (h : Fin 16) (s : Fin 2048) (d : Fin 64) : EReal :=
  ∑ t : Fin 2048,
    Ideal.div (Ideal.exp (∑ e : Fin 64, q (ix4 b h s e) * k (ix4 b h t e)))
      (∑ t' : Fin 2048, Ideal.exp (∑ e : Fin 64, q (ix4 b h s e) * k (ix4 b h t' e)))
    * v (ix4 b h t d)

/-- The reference's whole result array. -/
def refArr (q k v : Arg.Idx → EReal) : Arg.Idx → EReal := fun i =>
  refOut q k v (⟨(i 0).val, (i 0).isLt⟩ : Fin 2) (⟨(i 1).val, (i 1).isLt⟩ : Fin 16) (⟨(i 2).val, (i 2).isLt⟩ : Fin 2048) (⟨(i 3).val, (i 3).isLt⟩ : Fin 64)

end Cert.Attn

end
-- ==== Proof.Payload.lean ====
/-
  The body's payload read at one entry: the stored block's entry (r, d) is the quotient `Cert.Attn.blockOut` of the three
  loaded blocks.  The first product contracts the 64 entries of a query row against a key row, the exponential is taken
  entry by entry, the second product contracts the 2048 key rows against the extended value slice, column 64 of the
  result is the divisor of columns 0..63.
-/
import proofs.«403997_j58085137711581_3_alg».proof.Proof.Gen.KernelIdeal.Skeleton
import proofs.«403997_j58085137711581_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-! ## The first product: a query row against a key row

The left operand is [1024, 64], the right one [2048, 64], both contracted on their axis 1; the result's entry (r, t)
reads the left operand's row r and the right operand's row t. -/

theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Entry (r, t) of the first product into the zero accumulator: the sum over the 64 shared entries. -/
theorem qk_apply (a : FVec Ideal S1024x64 .bf16) (b : FVec Ideal S2048x64 .bf16) (r : Fin 1024) (t : Fin 2048) :
    matmul dot_S1024x64_S2048x64_S1024x2048_1_1_0_0_n_n none a b (constant (F := Ideal) S1024x2048 .f32 0x00000000#32) (ix2 r t)
      = ∑ e : Fin 64, a (ix2 r e) * b (ix2 t e) := by
  refine (Ideal.matmul_constant_zero_apply dot_S1024x64_S2048x64_S1024x2048_1_1_0_0_n_n none a b (ix2 r t)).trans ?_
  rw [← Equiv.sum_comp (ValueIdx.contrEquiv1 dot_S1024x64_S2048x64_S1024x2048_1_1_0_0_n_n 64 rfl rfl).symm]
  refine Finset.sum_congr rfl fun k _ => ?_
  have hk := ValueIdx.contrEquiv1_symm_val dot_S1024x64_S2048x64_S1024x2048_1_1_0_0_n_n 64 rfl rfl k
  have el : dot_S1024x64_S2048x64_S1024x2048_1_1_0_0_n_n.lhsIdx (ix2 r t) ((ValueIdx.contrEquiv1 dot_S1024x64_S2048x64_S1024x2048_1_1_0_0_n_n 64 rfl rfl).symm k) = ix2 r k := funext fun c => Fin.ext (by
    match c with
    | ⟨0, _⟩ => exact lhs_qk_0 _ _
    | ⟨1, _⟩ => exact (lhs_qk_1 _ _).trans hk)
  have er : dot_S1024x64_S2048x64_S1024x2048_1_1_0_0_n_n.rhsIdx (ix2 r t) ((ValueIdx.contrEquiv1 dot_S1024x64_S2048x64_S1024x2048_1_1_0_0_n_n 64 rfl rfl).symm k) = ix2 t k := funext fun c => Fin.ext (by
    match c with
    | ⟨0, _⟩ => exact rhs_qk_0 _ _
    | ⟨1, _⟩ => exact (rhs_qk_1 _ _).trans hk)
  rw [el, er]

/-! ## The second product: the weights' row against a column of the extended values

The left operand is [1024, 2048] contracted on its axis 1, the right one [2048, 128] contracted on its axis 0; the
result's entry (r, c) reads the left operand's row r and the right operand's column c. -/

theorem lhs_pv_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_pv_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_pv_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_pv_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- Entry (r, c) of the second product into the zero accumulator: the sum over the 2048 key rows. -/
theorem pv_apply (a : FVec Ideal S1024x2048 .bf16) (b : FVec Ideal S2048x128 .bf16) (r : Fin 1024) (c : Fin 128) :
    matmul dot_S1024x2048_S2048x128_S1024x128_1_0_0_1_n_n none a b (constant (F := Ideal) S1024x128 .f32 0x00000000#32) (ix2 r c)
      = ∑ t : Fin 2048, a (ix2 r t) * b (ix2 t c) := by
  refine (Ideal.matmul_constant_zero_apply dot_S1024x2048_S2048x128_S1024x128_1_0_0_1_n_n none a b (ix2 r c)).trans ?_
  rw [← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 r c) ((ValueIdx.contrEquiv1 dot_S1024x2048_S2048x128_S1024x128_1_0_0_1_n_n 2048 rfl rfl).symm k) = ix2 r k := funext fun x => Fin.ext (by
    match x with
    | ⟨0, _⟩ => exact lhs_pv_0 _ _
    | ⟨1, _⟩ => exact (lhs_pv_1 _ _).trans hk)
  have er : dot_S1024x2048_S2048x128_S1024x128_1_0_0_1_n_n.rhsIdx (ix2 r c) ((ValueIdx.contrEquiv1 dot_S1024x2048_S2048x128_S1024x128_1_0_0_1_n_n 2048 rfl rfl).symm k) = ix2 k c := funext fun x => Fin.ext (by
    match x with
    | ⟨0, _⟩ => exact (rhs_pv_0 _ _).trans hk
    | ⟨1, _⟩ => exact rhs_pv_1 _ _)
  rw [el, er]

/-! ## The two slices of the second product and the divisor's broadcast -/

/-- Columns 0..63 of a [1024, 128] array: entry (r, d) is the array's entry (r, d). -/
theorem sliceLo_apply {α : Type} (v : S1024x128.Idx → α) (h : S1024x128.Slices ![0, 0] S1024x64) (r : Fin 1024) (d : Fin 64) :
    extractStridedSlice S1024x64 ![0, 0] v h (ix2 r d) = v (ix2 r (⟨d.val, by omega⟩ : Fin 128)) :=
  extractStridedSlice_apply _ v h _ _ fun a => match a with
    | ⟨0, _⟩ => by show r.val = 0 + r.val; omega
    | ⟨1, _⟩ => by show d.val = 0 + d.val; omega

/-- Column 64 of a [1024, 128] array, kept as a [1024, 1] array: entry (r, 0) is the array's entry (r, 64). -/
theorem sliceCol_apply {α : Type} (v : S1024x128.Idx → α) (h : S1024x128.Slices ![0, 64] S1024x1) (r : Fin 1024) (u : Fin 1) :
    extractStridedSlice S1024x1 ![0, 64] v h (ix2 r u) = v (ix2 r (⟨64, by omega⟩ : Fin 128)) :=
  extractStridedSlice_apply _ v h _ _ fun a => match a with
    | ⟨0, _⟩ => by show r.val = 0 + r.val; omega
    | ⟨1, _⟩ => by show 64 = 64 + u.val; omega

/-- A [1024, 1] column broadcast over 64 columns: entry (r, d) is the column's entry (r, 0). -/
theorem bcastCol_apply {α : Type} (v : S1024x1.Idx → α) (h : S1024x1.Broadcasts S1024x64) (r : Fin 1024) (d : Fin 64) :
    broadcastTo S1024x64 v h (ix2 r d) = v (ix2 r (0 : Fin 1)) := by
  refine broadcastTo_apply v h (ix2 r d) (ix2 r (0 : Fin 1)) fun ax => ?_
  match ax with
  | ⟨0, _⟩ =>
    show r.val = if (1024 : ℕ) = 1 then 0 else r.val
    split
    · omega
    · rfl
  | ⟨1, _⟩ =>
    show (0 : ℕ) = if (1 : ℕ) = 1 then 0 else d.val
    split
    · rfl
    · omega

/-! ## The weights and the payload -/

/-- Entry (r, t) of the weights: the exponential of the query row r against the key row t; the narrowing to the
    16-bit format changes nothing on the extended reals. -/
theorem weight_apply (x0 : FVec Ideal S1x1024x64 .bf16) (x1 : FVec Ideal S1x2048x64 .bf16)
    (h0 : S1x1024x64.ShapeCasts S1024x64) (h1 : S1x2048x64.ShapeCasts S2048x64) (hlt : FTy.bits .bf16 < FTy.bits .f32)
    (r : Fin 1024) (t : Fin 2048) :
    truncf .bf16 (exp (matmul dot_S1024x64_S2048x64_S1024x2048_1_1_0_0_n_n none (shapeCast S1024x64 x0 h0) (shapeCast S2048x64 x1 h1)
        (constant (F := Ideal) S1024x2048 .f32 0x00000000#32))) hlt (ix2 r t)
      = Ideal.exp (∑ e : Fin 64, x0 (ix3 (0 : Fin 1) r e) * x1 (ix3 (0 : Fin 1) t e)) := by
  rw [truncf_apply]
  show Ideal.exp (matmul dot_S1024x64_S2048x64_S1024x2048_1_1_0_0_n_n none (shapeCast S1024x64 x0 h0) (shapeCast S2048x64 x1 h1)
        (constant (F := Ideal) S1024x2048 .f32 0x00000000#32) (ix2 r t)) = _
  rw [qk_apply]
  refine congrArg Ideal.exp (Finset.sum_congr rfl fun e _ => ?_)
  rw [shapeCast_1ab_ab_apply, shapeCast_1ab_ab_apply]

theorem pay_apply (x0 : Vec Ideal S1x1024x64 .bf16) (x1 : Vec Ideal S1x2048x64 .bf16) (x2 : Vec Ideal S1x2048x128 .bf16)
    (r : Fin 1024) (d : Fin 64) :
    k0_pay1 (F := Ideal) x0 x1 x2 (ix3 (0 : Fin 1) r d) = Cert.Attn.blockOut x0 x1 x2 r d := by
  unfold k0_pay1
  refine (shapeCast_ab_1ab_apply _ _ (0 : Fin 1) r d).trans ?_
  rw [divf_apply, sliceLo_apply, bcastCol_apply, sliceCol_apply, pv_apply, pv_apply]
  unfold Cert.Attn.blockOut
  refine congrArg₂ Ideal.div (Finset.sum_congr rfl fun t _ => ?_) (Finset.sum_congr rfl fun t _ => ?_)
  · rw [weight_apply, shapeCast_1ab_ab_apply]
  · rw [weight_apply, shapeCast_1ab_ab_apply]

end Cert.KernelIdeal.Pay

end
-- ==== Proof.Algebra.lean ====
/-
  The law that joins the kernel's arrangement to the reference's.

  For positive reals E_t and reals w_t over a nonempty finite index set,
      (Σ_t E_t · w_t) / (Σ_t E_t · 1)  =  Σ_t (E_t / Σ_t' E_t') · w_t :
  the divisor is a nonzero real, so dividing by it is multiplying by its real inverse, which distributes over the finite
  sum.  On the extended reals this needs the summands to be REAL (an infinite weight would break distributivity), which is
  where the finiteness of the inputs is used: a finite sum of products of reals is real and its exponential is a positive
  real.
-/
import proofs.«403997_j58085137711581_3_alg».proof.Proof.Spec

noncomputable section

namespace Cert.Attn

open Idealize.ShloMosaic Idealize.ShloMosaic.ValueIdx

/-- A finite sum of reals, taken in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The kernel's quotient over the flattened arrays is the reference's sum of quotients, at slice (b, h), wherever the
    three arguments are real: the flattened arrays are the arguments' slices, the extended value slice carries the values
    in columns 0..63 and ones in column 64. -/
theorem flatOut_eq_refOut (q k v : Arg.Idx → EReal)
    (hq : ∀ i, ∃ r : ℝ, q i = (r : EReal)) (hk : ∀ i, ∃ r : ℝ, k i = (r : EReal)) (hv : ∀ i, ∃ r : ℝ, v i = (r : EReal))
    (Q K : Flat.Idx → EReal) (VE : FlatExt.Idx → EReal) (b : Fin 2) (h : Fin 16)
    (hQ : ∀ (s : Fin 2048) (e : Fin 64), Q (ix3 (⟨b.val * 16 + h.val, by omega⟩ : Fin 32) s e) = q (ix4 b h s e))
    (hK : ∀ (t : Fin 2048) (e : Fin 64), K (ix3 (⟨b.val * 16 + h.val, by omega⟩ : Fin 32) t e) = k (ix4 b h t e))
    (hV : ∀ (t : Fin 2048) (d : Fin 64), VE (ix3 (⟨b.val * 16 + h.val, by omega⟩ : Fin 32) t (⟨d.val, by omega⟩ : Fin 128)) = v (ix4 b h t d))
    (hOne : ∀ t : Fin 2048, VE (ix3 (⟨b.val * 16 + h.val, by omega⟩ : Fin 32) t (⟨64, by omega⟩ : Fin 128)) = (1 : EReal))
    (s : Fin 2048) (d : Fin 64) :
    flatOut Q K VE (⟨b.val * 16 + h.val, by omega⟩ : Fin 32) s d = refOut q k v b h s d := by
  choose qr hqr using hq
  choose kr hkr using hk
  choose vr hvr using hv
  have hS : (0 : ℝ) < ∑ i : Fin 2048, Real.exp (∑ e : Fin 64, qr (ix4 b h s e) * kr (ix4 b h i e)) :=
    Finset.sum_pos (fun t _ => Real.exp_pos _) ⟨⟨0, Nat.succ_pos 2047⟩, Finset.mem_univ _⟩
  unfold flatOut refOut
  simp only [hQ, hK, hV, hOne, hqr, hkr, hvr, ← EReal.coe_mul, coe_sum, Ideal.exp_coe, mul_one]
  simp only [Ideal.div_coe hS.ne', ← EReal.coe_mul, coe_sum]
  refine congrArg _ ?_
  rw [Finset.sum_mul]
  exact Finset.sum_congr rfl fun t _ => by ring

/-- One stored block's entry is the flattened arrays' entry, when the three blocks read where the flattened arrays do. -/
theorem blockOut_eq_flatOut (x0 : QBlk.Idx → EReal) (x1 : KBlk.Idx → EReal) (x2 : VBlk.Idx → EReal)
    (Q K : Flat.Idx → EReal) (VE : FlatExt.Idx → EReal) (r : Fin 1024) (d : Fin 64) (bh : Fin 32) (s : Fin 2048)
    (h0 : ∀ e : Fin 64, x0 (ix3 (0 : Fin 1) r e) = Q (ix3 bh s e))
    (h1 : ∀ (t : Fin 2048) (e : Fin 64), x1 (ix3 (0 : Fin 1) t e) = K (ix3 bh t e))
    (h2 : ∀ (t : Fin 2048) (cc : Fin 128), x2 (ix3 (0 : Fin 1) t cc) = VE (ix3 bh t cc)) :
    blockOut x0 x1 x2 r d = flatOut Q K VE bh s d := by
  unfold blockOut flatOut
  simp only [h0, h1, h2]

end Cert.Attn

end
-- ==== Proof.Blocks.lean ====
/-
  From what each grid point writes back to the whole result array.

  Grid point (bh, qi) writes back block (bh, qi) of the [32, 2048, 64] array: rows qi·1024 .. qi·1024+1023 of slice bh.
  Its entry (r, d) is the quotient of the spec for the three blocks the point reads, and those blocks are: rows
  qi·1024.. of slice bh of the first array, and the whole slices bh of the second and of the extended third.  So the block
  written back is the restriction of ONE function of the three arrays (`attnArr`).  The 64 blocks tile the array (the point
  that covers row s of slice bh is (bh, s / 1024)), hence after the run the array IS that function.
-/
import proofs.«403997_j58085137711581_3_alg».proof.Proof.IdealFrame
import proofs.«403997_j58085137711581_3_alg».proof.Proof.Payload
import proofs.«403997_j58085137711581_3_alg».proof.Proof.Algebra
import Idealize.ShloMosaic.Lib.Pipeline.Value

set_option maxRecDepth 16384

noncomputable section

namespace Cert.KernelIdeal.Blk

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The result array as one function of the three arrays the launch reads. -/
def attnArr (Q K : S32x2048x64.Idx → EReal) (VE : S32x2048x128.Idx → EReal) : S32x2048x64.Idx → EReal := fun i =>
  Cert.Attn.flatOut Q K VE (⟨(i 0).val, (i 0).isLt⟩ : Fin 32) (⟨(i 1).val, (i 1).isLt⟩ : Fin 2048) (⟨(i 2).val, (i 2).isLt⟩ : Fin 64)

/-- The index maps over the grid: the key and value windows sit at slice bh, whole; the query window moves with the
    output window. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 31 ∧ win0_3.index t (1 : Fin 3) ≤ 1 :=
  (by decide +kernel : ∀ t : Fin grid0.N, _)

/-- Every block index (bh, qi, 0) is some point's. -/
theorem idx_onto : ∀ (q0 : Fin 32) (q1 : Fin 2), ∃ t : Fin cfg0.N, win0_3.index t = ![q0.val, q1.val, 0] :=
  (by decide +kernel : ∀ (q0 : Fin 32) (q1 : Fin 2), ∃ t : Fin grid0.N, win0_3.index t = ![q0.val, q1.val, 0])

/-! ## The three blocks a point reads -/

theorem read_q (c : Dev nD) (t : Fin cfg0.N) (r : Fin 1024) (e : Fin 64) (bh : Fin 32) (s : Fin 2048)
    (hb : bh.val = win0_3.index t (0 : Fin 3)) (hs : s.val = win0_3.index t (1 : Fin 3) * 1024 + r.val) :
    iblk m c 0 t (ix3 (0 : Fin 1) r e) = V m c main_v1 (ix3 bh s e) := by
  show V m c main_v1 (((cfg0.win 0).blk t).view.emb (ix3 (0 : Fin 1) r e)) = V m c main_v1 (ix3 bh s e)
  refine congrArg (V m c main_v1) ?_
  obtain ⟨e0, e1, e2, -⟩ := idx_facts t
  funext a; apply Fin.ext
  match a with
  | ⟨0, _⟩ => show win0_0.index t (0 : Fin 3) * 1 + 1 * 0 = bh.val; omega
  | ⟨1, _⟩ => show win0_0.index t (1 : Fin 3) * 1024 + 1 * r.val = s.val; omega
  | ⟨2, _⟩ => show win0_0.index t (2 : Fin 3) * 64 + 1 * e.val = e.val; omega

theorem read_k (c : Dev nD) (t : Fin cfg0.N) (t' : Fin 2048) (e : Fin 64) (bh : Fin 32)
    (hb : bh.val = win0_3.index t (0 : Fin 3)) :
    iblk m c 1 t (ix3 (0 : Fin 1) t' e) = V m c main_v3 (ix3 bh t' e) := by
  show V m c main_v3 (((cfg0.win 1).blk t).view.emb (ix3 (0 : Fin 1) t' e)) = V m c main_v3 (ix3 bh t' e)
  refine congrArg (V m c main_v3) ?_
  obtain ⟨-, -, -, e3, e4, e5, -⟩ := idx_facts t
  funext a; apply Fin.ext
  match a with
  | ⟨0, _⟩ => show win0_1.index t (0 : Fin 3) * 1 + 1 * 0 = bh.val; omega
  | ⟨1, _⟩ => show win0_1.index t (1 : Fin 3) * 2048 + 1 * t'.val = t'.val; omega
  | ⟨2, _⟩ => show win0_1.index t (2 : Fin 3) * 64 + 1 * e.val = e.val; omega

theorem read_v (c : Dev nD) (t : Fin cfg0.N) (t' : Fin 2048) (cc : Fin 128) (bh : Fin 32)
    (hb : bh.val = win0_3.index t (0 : Fin 3)) :
    iblk m c 2 t (ix3 (0 : Fin 1) t' cc) = V m c main_v8 (ix3 bh t' cc) := by
  show V m c main_v8 (((cfg0.win 2).blk t).view.emb (ix3 (0 : Fin 1) t' cc)) = V m c main_v8 (ix3 bh t' cc)
  refine congrArg (V m c main_v8) ?_
  obtain ⟨-, -, -, -, -, -, e6, e7, e8, -⟩ := idx_facts t
  funext a; apply Fin.ext
  match a with
  | ⟨0, _⟩ => show win0_2.index t (0 : Fin 3) * 1 + 1 * 0 = bh.val; omega
  | ⟨1, _⟩ => show win0_2.index t (1 : Fin 3) * 2048 + 1 * t'.val = t'.val; omega
  | ⟨2, _⟩ => show win0_2.index t (2 : Fin 3) * 128 + 1 * cc.val = cc.val; omega

/-! ## What a point writes back -/

/-- Point t writes back block t of `attnArr` of the three arrays as the launch finds them. -/
theorem flushed_eq (c : Dev nD) (t : Fin cfg0.N) :
    (dats m 0 c).flushed 3 t
      = ((cfg0.win 3).blk t).view.read (Elt Ideal) (attnArr (V m c main_v1) (V m c main_v3) (V m c main_v8)) := by
  show (cfg0.win 3).cut (grid0.coords t) ((dats m 0 c).after 3 t) = _
  rw [after0_3]
  unfold outBlock
  rw [View.canon_unit_zero hz3]
  simp only [View.ld_unit_zero (S := S1x1024x64) hz3, View.ld_unit_zero (S := S1x2048x64) hz3, View.ld_unit_zero (S := S1x2048x128) hz3]
  refine funext fun (j : S1x1024x64.Idx) => ?_
  obtain ⟨z, r, d, rfl⟩ : ∃ (z : Fin 1) (r : Fin 1024) (d : Fin 64), j = ix3 z r d := ⟨j 0, j 1, j 2, eq_ix3 j⟩
  obtain rfl : z = 0 := Subsingleton.elim _ _
  show k0_pay1 (F := Ideal) (iblk m c 0 t) (iblk m c 1 t) (iblk m c 2 t) (ix3 (0 : Fin 1) r d)
    = attnArr (V m c main_v1) (V m c main_v3) (V m c main_v8) (((cfg0.win 3).blk t).view.emb (ix3 (0 : Fin 1) r d))
  refine (Cert.KernelIdeal.Pay.pay_apply (iblk m c 0 t) (iblk m c 1 t) (iblk m c 2 t) r d).trans ?_
  obtain ⟨-, -, -, -, -, -, -, -, -, e9, e10, e11⟩ := idx_facts t
  have hb : ((((cfg0.win 3).blk t).view.emb (ix3 (0 : Fin 1) r d)) 0).val = win0_3.index t (0 : Fin 3) := by
    show win0_3.index t (0 : Fin 3) * 1 + 1 * 0 = _; omega
  have hs : ((((cfg0.win 3).blk t).view.emb (ix3 (0 : Fin 1) r d)) 1).val = win0_3.index t (1 : Fin 3) * 1024 + r.val := by
    show win0_3.index t (1 : Fin 3) * 1024 + 1 * r.val = _; omega
  have hd : (⟨((((cfg0.win 3).blk t).view.emb (ix3 (0 : Fin 1) r d)) 2).val, ((((cfg0.win 3).blk t).view.emb (ix3 (0 : Fin 1) r d)) 2).isLt⟩ : Fin 64) = d := by
    apply Fin.ext
    show win0_3.index t (2 : Fin 3) * 64 + 1 * d.val = _; omega
  unfold attnArr
  rw [hd]
  exact Cert.Attn.blockOut_eq_flatOut _ _ _ _ _ _ r d _ _
    (fun e => read_q m c t r e _ _ hb hs) (fun t' e => read_k m c t t' e _ hb) (fun t' cc => read_v m c t t' cc _ hb)

/-! ## The blocks tile the array -/

theorem mem_blk (t : Fin cfg0.N) (i : S32x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v9).slice (win0_3.rect t)).set ↔ _
  rw [View.set_slice_whole, Rect.mem_set_unit]
  exact Iff.rfl

theorem cover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- After the launch the result array is `attnArr` of the three arrays the launch read. -/
theorem final (c : Dev nD) :
    (dats m 0 c).arrAt 3 cfg0.N = attnArr (V m c main_v1) (V m c main_v3) (V m c main_v8) :=
  (dats m 0 c).arrAt_eq_of_cover 3 (attnArr (V m c main_v1) (V m c main_v3) (V m c main_v8))
    (fun t _ => flushed_eq m c t) (cover)

/-! ## The run, with the program's result named -/

/-- Every execution terminates with the program's result at what the closing reshape makes of the launch's arrays, and the
    arguments unchanged. -/
theorem run_result : θ_run defs (onTc (τ := τ) (main (F := Ideal))) ⟨m, fun _ => 0, ρ⟩ fun r => ∀ c : Dev nD,
      r.2.mem ((c.tc : Thread nD τ).loc main_v10) = Pipeline.afterTail₀ cfgs (dats m) 0 (V0 m) [hostOps1] c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).2 main_v10 (Pipeline.mem_restRefs_of main_v10 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Blk

end
-- ==== Proof.HostSide.lean ====
/-
  What the host lines around the launch do, read at one entry.  Before the launch the three arguments are flattened from
  [2,16,2048,64] to [32,2048,64] (slice b·16+h of the flat array is slice (b,h) of the argument; changes of float format
  are the identity on extended reals), and the third is widened to 128 columns: columns 0..63 the argument, column 64 the
  constant one, the rest zero.  After the launch the result is un-flattened the same way.
-/
import proofs.«403997_j58085137711581_3_alg».proof.Proof.IdealFrame
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The first array of the launch is the first argument, flattened and changed in format. -/
theorem q_term (c : Dev nD) :
    (Frm.V m c main_v1 : S32x2048x64.Idx → EReal)
      = (truncf (F := Ideal) .bf16 (shapeCast S32x2048x64 (m ((c : Thread nD τ).loc main_arg0) : S2x16x2048x64.Idx → EReal) shapeCasts_S2x16x2048x64_S32x2048x64 : FVec Ideal S32x2048x64 .f32) bitsLt_bf16_f32 : FVec Ideal S32x2048x64 .bf16) := by
  show StableHlo.after hostOps0 (fun b => m (c, b)) (Proc.devRef .tc main_v1) = _
  after_results
  rfl

/-- The second, the same of the second argument. -/
theorem k_term (c : Dev nD) :
    (Frm.V m c main_v3 : S32x2048x64.Idx → EReal)
      = (truncf (F := Ideal) .bf16 (shapeCast S32x2048x64 (m ((c : Thread nD τ).loc main_arg1) : S2x16x2048x64.Idx → EReal) shapeCasts_S2x16x2048x64_S32x2048x64 : FVec Ideal S32x2048x64 .f32) bitsLt_bf16_f32 : FVec Ideal S32x2048x64 .bf16) := by
  show StableHlo.after hostOps0 (fun b => m (c, b)) (Proc.devRef .tc main_v3) = _
  after_results
  rfl

/-- Flattening the two leading axes: entry (b·16+h, s, e) of the flat array is entry (b, h, s, e) of the argument, the two
    having the same row-major position ((b·16+h)·2048+s)·64+e. -/
theorem flat_apply {α : Type} (x : S2x16x2048x64.Idx → α) (b : Fin 2) (h : Fin 16) (s : Fin 2048) (e : Fin 64) :
    shapeCast S32x2048x64 x shapeCasts_S2x16x2048x64_S32x2048x64 (ix3 (⟨b.val * 16 + h.val, by omega⟩ : Fin 32) s e) = x (ix4 b h s e) := by
  refine shapeCast_apply _ _ _ _ ?_
  rw [Shape.rowMajor_val_four, Shape.rowMajor_val_three]
  show ((b.val * 16 + h.val) * 2048 + s.val) * 64 + e.val = ((b.val * 16 + h.val) * 2048 + s.val) * 64 + e.val
  rfl

theorem q_apply (c : Dev nD) (b : Fin 2) (h : Fin 16) (s : Fin 2048) (e : Fin 64) :
    Frm.V m c main_v1 (ix3 (⟨b.val * 16 + h.val, by omega⟩ : Fin 32) s e) = m ((c : Thread nD τ).loc main_arg0) (ix4 b h s e) := by
  refine (congrFun (q_term m c) _).trans ?_
  rw [truncf_apply]
  exact flat_apply _ b h s e

theorem k_apply (c : Dev nD) (b : Fin 2) (h : Fin 16) (t : Fin 2048) (e : Fin 64) :
    Frm.V m c main_v3 (ix3 (⟨b.val * 16 + h.val, by omega⟩ : Fin 32) t e) = m ((c : Thread nD τ).loc main_arg1) (ix4 b h t e) := by
  refine (congrFun (k_term m c) _).trans ?_
  rw [truncf_apply]
  exact flat_apply _ b h t e

/-- An operation of three operands, named one by one: its result buffer holds its function of the three operands'
    contents, each read at its own buffer. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The third array of the launch: the third argument flattened, a column of ones and 63 columns of zeros side by side,
    changed in format. -/
theorem v_term (c : Dev nD) :
    (Frm.V m c main_v8 : S32x2048x128.Idx → EReal)
      = (truncf (F := Ideal) .bf16 (concatenate S32x2048x128 2
          [⟨S32x2048x64, (shapeCast S32x2048x64 (m ((c : Thread nD τ).loc main_arg2) : S2x16x2048x64.Idx → EReal) shapeCasts_S2x16x2048x64_S32x2048x64 : FVec Ideal S32x2048x64 .f32)⟩,
           ⟨S32x2048x1, (broadcastInDim S32x2048x1 ![] bcast_S_S32x2048x1 (constant (F := Ideal) S_ .f32 0x3F800000#32) : FVec Ideal S32x2048x1 .f32)⟩,
           ⟨S32x2048x63, (broadcastInDim S32x2048x63 ![] bcast_S_S32x2048x63 (constant (F := Ideal) S_ .f32 0x00000000#32) : FVec Ideal S32x2048x63 .f32)⟩]
          concatenates_S32x2048x64_S32x2048x1_S32x2048x63_S32x2048x128_d2 : FVec Ideal S32x2048x128 .f32) bitsLt_bf16_f32 : FVec Ideal S32x2048x128 .bf16) := by
  show StableHlo.after hostOps0 (fun b => m (c, b)) (Proc.devRef .tc main_v8) = _
  simp only [StableHlo.after_cons, StableHlo.after_nil]
  rw [StableHlo.unary_result, nary3_result]
  -- each operand's contents in turn: the operation that wrote it gives its value, every other one leaves it alone
  repeat (first
    | rw [StableHlo.nullary_result] | rw [StableHlo.unary_result] | rw [StableHlo.reshape_result]
    | (rw [StableHlo.nullary_result_ne]; rotate_left; decide)
    | (rw [StableHlo.unary_result_ne]; rotate_left; decide)
    | (rw [StableHlo.reshape_result_ne]; rotate_left; decide)
    | (rw [StableHlo.nary_result_ne]; rotate_left; decide))
  rfl

/-- The single-precision word of one denotes the extended real 1: sign 0, exponent 127, fraction 0, so 2²³ · 2⁻²³. -/
theorem ofBits_one_f32 : Ideal.ofBits .f32 0x3F800000#32 = (1 : EReal) := by
  simp [Ideal.ofBits, Ideal.ieee]
  rw [← EReal.coe_mul, ← EReal.coe_one, EReal.coe_eq_coe_iff]
  norm_num

/-- The widened array at a column below 64 is its first piece there. -/
theorem widen_apply_left (x1 : S32x2048x64.Idx → EReal) (x2 : S32x2048x1.Idx → EReal) (x3 : S32x2048x63.Idx → EReal)
    (bh : Fin 32) (t : Fin 2048) (d : Fin 64) :
    concatenate S32x2048x128 2 [⟨S32x2048x64, x1⟩, ⟨S32x2048x1, x2⟩, ⟨S32x2048x63, x3⟩]
      concatenates_S32x2048x64_S32x2048x1_S32x2048x63_S32x2048x128_d2 (ix3 bh t (⟨d.val, by omega⟩ : Fin 128)) = x1 (ix3 bh t d) := by
  refine concatenate_apply_piece (t := S32x2048x128) 2 [⟨S32x2048x64, x1⟩, ⟨S32x2048x1, x2⟩, ⟨S32x2048x63, x3⟩] _ _ 0 (Nat.succ_pos _)
    S32x2048x64 x1 rfl rfl 0 rfl (ix3 bh t d) ?_ ?_
  · intro a ha
    match a, ha with
    | ⟨0, _⟩, _ => rfl
    | ⟨1, _⟩, _ => rfl
    | ⟨2, _⟩, ha => exact absurd rfl ha
  · show 0 + d.val = d.val
    omega

/-- At column 64 it is its second piece, the one-column array, at column 0: the first piece spans columns 0..63. -/
theorem widen_apply_mid (x1 : S32x2048x64.Idx → EReal) (x2 : S32x2048x1.Idx → EReal) (x3 : S32x2048x63.Idx → EReal)
    (bh : Fin 32) (t : Fin 2048) :
    concatenate S32x2048x128 2 [⟨S32x2048x64, x1⟩, ⟨S32x2048x1, x2⟩, ⟨S32x2048x63, x3⟩]
      concatenates_S32x2048x64_S32x2048x1_S32x2048x63_S32x2048x128_d2 (ix3 bh t (⟨64, by omega⟩ : Fin 128)) = x2 (ix3 bh t (0 : Fin 1)) := by
  refine concatenate_apply_piece (t := S32x2048x128) 2 [⟨S32x2048x64, x1⟩, ⟨S32x2048x1, x2⟩, ⟨S32x2048x63, x3⟩] _ _ 1
    (Nat.succ_lt_succ (Nat.succ_pos _)) S32x2048x1 x2 rfl rfl 64 rfl (ix3 bh t (0 : Fin 1)) ?_ rfl
  intro a ha
  match a, ha with
  | ⟨0, _⟩, _ => rfl
  | ⟨1, _⟩, _ => rfl
  | ⟨2, _⟩, ha => exact absurd rfl ha

theorem v_apply (c : Dev nD) (b : Fin 2) (h : Fin 16) (t : Fin 2048) (d : Fin 64) :
    Frm.V m c main_v8 (ix3 (⟨b.val * 16 + h.val, by omega⟩ : Fin 32) t (⟨d.val, by omega⟩ : Fin 128)) = m ((c : Thread nD τ).loc main_arg2) (ix4 b h t d) := by
  refine (congrFun (v_term m c) _).trans ?_
  rw [truncf_apply]
  refine (widen_apply_left _ _ _ _ t d).trans ?_
  exact flat_apply _ b h t d

theorem one_apply (c : Dev nD) (bh : Fin 32) (t : Fin 2048) :
    Frm.V m c main_v8 (ix3 bh t (⟨64, by omega⟩ : Fin 128)) = (1 : EReal) := by
  refine (congrFun (v_term m c) _).trans ?_
  rw [truncf_apply]
  refine (widen_apply_mid _ _ _ bh t).trans ?_
  -- a scalar broadcast to every entry, read anywhere, is the scalar
  refine (broadcastInDim_apply _ _ _ _ ix0 (fun a => a.elim0)).trans ?_
  rw [constant_apply]
  exact ofBits_one_f32

/-- Un-flattening: entry (b, h, s, e) of the result is entry (b·16+h, s, e) of the flat array, the two having the same
    row-major position. -/
theorem unflat_apply {α : Type} (x : S32x2048x64.Idx → α) (b : Fin 2) (h : Fin 16) (s : Fin 2048) (e : Fin 64) :
    shapeCast S2x16x2048x64 x shapeCasts_S32x2048x64_S2x16x2048x64 (ix4 b h s e) = x (ix3 (⟨b.val * 16 + h.val, by omega⟩ : Fin 32) s e) := by
  refine shapeCast_apply _ _ _ _ ?_
  rw [Shape.rowMajor_val_four, Shape.rowMajor_val_three]
  show ((b.val * 16 + h.val) * 2048 + s.val) * 64 + e.val = ((b.val * 16 + h.val) * 2048 + s.val) * 64 + e.val
  rfl

theorem result_apply (c : Dev nD) (b : Fin 2) (h : Fin 16) (s : Fin 2048) (d : Fin 64) :
    Pipeline.afterTail₀ cfgs (Frm.dats m) 0 (Frm.V0 m) [hostOps1] c main_v10 (ix4 b h s d)
      = (Frm.dats m 0 c).arrAt 3 cfg0.N (ix3 (⟨b.val * 16 + h.val, by omega⟩ : Fin 32) s d) := by
  -- the closing line is one reshape of the launch's fourth array, which the launch leaves at what its write-backs put there
  unfold Pipeline.afterTail₀
  show StableHlo.after hostOps1 _ (Proc.devRef .tc main_v10) (ix4 b h s d) = _
  after_results
  show shapeCast S2x16x2048x64 (Pipeline.withArrays spec0 c (Frm.V0 m c) (fun w => (Frm.dats m 0 c).arrAt w cfg0.N) (Proc.devRef .tc main_v9)) shapeCasts_S32x2048x64_S2x16x2048x64 (ix4 b h s d) = _
  rw [unflat_apply]
  exact congrFun (Pipeline.withArrays_arr spec0 launch0.win.arr_inj c _ _ 3) _

end Cert.KernelIdeal.HostSide

end
-- ==== Proof.RefRead.lean ====
/-
  The reference's result read at one entry: entry (b, h, s, d) is `Cert.Attn.refOut`, the sum over key rows t of the
  normalised weight of (s, t) times v[b, h, t, d].
-/
import proofs.«403997_j58085137711581_3_alg».proof.Proof.Gen.ReferenceIdeal.Read
import proofs.«403997_j58085137711581_3_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx

/-! ### The composed index maps at an index given by its coordinates -/

/-- The second product reads the weights at row s, key row t. -/
theorem lidx6_at (b : Fin 2) (h : Fin 16) (s : Fin 2048) (d : Fin 64) (t : Fin 2048) :
    Read.lidx_main_v6 (ix4 b h s d) t = ix4 b h s t :=
  funext fun a => Fin.ext (by match a with | ⟨0, _⟩ => rfl | ⟨1, _⟩ => rfl | ⟨2, _⟩ => rfl | ⟨3, _⟩ => rfl)

/-- The second product reads the values at key row t, column d. -/
theorem ridx6_at (b : Fin 2) (h : Fin 16) (s : Fin 2048) (d : Fin 64) (t : Fin 2048) :
    Read.ridx_main_v6 (ix4 b h s d) t = ix4 b h t d :=
  funext fun a => Fin.ext (by match a with | ⟨0, _⟩ => rfl | ⟨1, _⟩ => rfl | ⟨2, _⟩ => rfl | ⟨3, _⟩ => rfl)

/-- The first product reads the queries at row s, column e. -/
theorem lidx0_at (b : Fin 2) (h : Fin 16) (s t : Fin 2048) (e : Fin 64) :
    Read.lidx_main_v0 (ix4 b h s t) e = ix4 b h s e :=
  funext fun a => Fin.ext (by match a with | ⟨0, _⟩ => rfl | ⟨1, _⟩ => rfl | ⟨2, _⟩ => rfl | ⟨3, _⟩ => rfl)

/-- The first product reads the keys at row t, column e. -/
theorem ridx0_at (b : Fin 2) (h : Fin 16) (s t : Fin 2048) (e : Fin 64) :
    Read.ridx_main_v0 (ix4 b h s t) e = ix4 b h t e :=
  funext fun a => Fin.ext (by match a with | ⟨0, _⟩ => rfl | ⟨1, _⟩ => rfl | ⟨2, _⟩ => rfl | ⟨3, _⟩ => rfl)

/-- The row sum, broadcast along the key axis, is read at its one column. -/
theorem idx4_at (b : Fin 2) (h : Fin 16) (s t : Fin 2048) :
    Read.idx_main_v4 (ix4 b h s t) = ix4 b h s (0 : Fin 1) :=
  funext fun a => Fin.ext (by match a with | ⟨0, _⟩ => rfl | ⟨1, _⟩ => rfl | ⟨2, _⟩ => rfl | ⟨3, _⟩ => rfl)

/-- The kept column is dropped. -/
theorem idx3_at (b : Fin 2) (h : Fin 16) (s : Fin 2048) :
    Read.idx_main_v3 (ix4 b h s (0 : Fin 1)) = ix3 b h s :=
  funext fun a => Fin.ext (by match a with | ⟨0, _⟩ => rfl | ⟨1, _⟩ => rfl | ⟨2, _⟩ => rfl)

/-- The row sum runs over the key rows t'. -/
theorem idx2_at (b : Fin 2) (h : Fin 16) (s t' : Fin 2048) :
    Read.idx_main_v2 (ix3 b h s) t' = ix4 b h s t' :=
  funext fun a => Fin.ext (by match a with | ⟨0, _⟩ => rfl | ⟨1, _⟩ => rfl | ⟨2, _⟩ => rfl | ⟨3, _⟩ => rfl)

/-! ### The stages at an index -/

/-- The weight of (s, t): the exponential of the inner product of query row s and key row t. -/
theorem weight_at (q k : FVec Ideal S2x16x2048x64 .f32) (b : Fin 2) (h : Fin 16) (s t : Fin 2048) :
    Read.val_main_v1 (F := Ideal) q k (ix4 b h s t)
      = Ideal.exp (∑ e : Fin 64, q (ix4 b h s e) * k (ix4 b h t e)) := by
  rw [Read.val_main_v1_apply, Read.val_main_v0_apply, Ideal.hostUnary_exp_def]
  simp only [lidx0_at, ridx0_at]

/-- The broadcast row sum at (s, t) is the sum of the weights of row s. -/
theorem rowsum_at (q k : FVec Ideal S2x16x2048x64 .f32) (b : Fin 2) (h : Fin 16) (s t : Fin 2048) :
    Read.val_main_v4 (F := Ideal) q k (ix4 b h s t)
      = ∑ t' : Fin 2048, Ideal.exp (∑ e : Fin 64, q (ix4 b h s e) * k (ix4 b h t' e)) := by
  rw [Read.val_main_v4_apply, idx4_at, Read.val_main_v3_apply, idx3_at, Read.val_main_v2_apply,
    Read.val_main_cst_apply, Ideal.ofBits_def, Ideal.ofBits_zero_f32, zero_add]
  refine Finset.sum_congr rfl fun t' _ => ?_
  rw [idx2_at, weight_at]

theorem ref_apply (q k v : FVec Ideal S2x16x2048x64 .f32) (b : Fin 2) (h : Fin 16) (s : Fin 2048) (d : Fin 64) :
    Cert.ReferenceIdeal.Read.val_main_v6 (F := Ideal) q k v (ix4 b h s d) = Cert.Attn.refOut q k v b h s d := by
  rw [Read.val_main_v6_apply]
  unfold Cert.Attn.refOut
  refine Finset.sum_congr rfl fun t _ => ?_
  rw [lidx6_at, ridx6_at, Read.val_main_v5_apply, Ideal.hostDivf_def, weight_at, rowsum_at]

end Cert.ReferenceIdeal.RefValue

end
-- ==== Proof.KernelValue.lean ====
/-
  The program's result is the reference's array, wherever the three arguments are real.

  Entry (b, h, s, d) of the result is entry (b·16+h, s, d) of the launch's result array (the closing reshape), which is the
  quotient (Σ_t w·vext[t,d]) / (Σ_t w·vext[t,64]) over the flattened arrays; those are the arguments' slices (b, h), the
  value slice carrying a column of ones at 64; and for real arguments that quotient is the reference's Σ_t (w / Σ w)·v.
-/
import proofs.«403997_j58085137711581_3_alg».proof.Proof.Blocks
import proofs.«403997_j58085137711581_3_alg».proof.Proof.HostSide
import proofs.«403997_j58085137711581_3_alg».proof.Proof.RefRead

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem

variable (m : (ℓ : Loc nD τ sig) → Buf (Elt Ideal) ℓ)

theorem result_eq (c : Dev nD)
    (hq : ∀ i, ∃ r : ℝ, m ((c : Thread nD τ).loc main_arg0) i = (r : EReal))
    (hk : ∀ i, ∃ r : ℝ, m ((c : Thread nD τ).loc main_arg1) i = (r : EReal))
    (hv : ∀ i, ∃ r : ℝ, m ((c : Thread nD τ).loc main_arg2) i = (r : EReal)) :
    Pipeline.afterTail₀ cfgs (dats m) 0 (V0 m) [hostOps1] c main_v10
      = Cert.Attn.refArr (m ((c : Thread nD τ).loc main_arg0)) (m ((c : Thread nD τ).loc main_arg1)) (m ((c : Thread nD τ).loc main_arg2)) := by
  refine funext fun (i : S2x16x2048x64.Idx) => ?_
  obtain ⟨b, h, s, d, rfl⟩ : ∃ (b : Fin 2) (h : Fin 16) (s : Fin 2048) (d : Fin 64), i = ix4 b h s d := ⟨i 0, i 1, i 2, i 3, eq_ix4 i⟩
  rw [HostSide.result_apply m c b h s d, Blk.final m c]
  show Cert.Attn.flatOut _ _ _ (⟨b.val * 16 + h.val, by omega⟩ : Fin 32) s d = Cert.Attn.refOut _ _ _ b h s d
  exact Cert.Attn.flatOut_eq_refOut _ _ _ hq hk hv _ _ _ b h
    (fun s e => HostSide.q_apply m c b h s e) (fun t e => HostSide.k_apply m c b h t e)
    (fun t d => HostSide.v_apply m c b h t d) (fun t => HostSide.one_apply m c _ t) s d

end Cert.KernelIdeal.Val

namespace Cert.ReferenceIdeal.RefValue

open Cert.ReferenceIdeal Idealize.ShloMosaic Idealize.ShloMosaic.ValueIdx

/-- The reference's last stage is the reference array of the spec. -/
theorem ref_arr (q k v : FVec Ideal S2x16x2048x64 .f32) :
    Cert.ReferenceIdeal.Read.val_main_v6 (F := Ideal) q k v = Cert.Attn.refArr q k v := by
  refine funext fun (i : S2x16x2048x64.Idx) => ?_
  obtain ⟨b, h, s, d, rfl⟩ : ∃ (b : Fin 2) (h : Fin 16) (s : Fin 2048) (d : Fin 64), i = ix4 b h s d := ⟨i 0, i 1, i 2, i 3, eq_ix4 i⟩
  exact ref_apply q k v b h s d

end Cert.ReferenceIdeal.RefValue

end
-- ==== Proof.Finite.lean ====
/-
  The precondition read: if all three `every |x| < +inf` tests come out true then every entry of each argument is a real
  number (neither infinity).
-/
import proofs.«403997_j58085137711581_3_alg».proof.Proof.Gen.Pre_finite_inputs
import Idealize.ShloMosaic.PureOps.Ideal.Laws
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic

/-- The scalar shape has one index. -/
instance : Subsingleton S_.Idx := ⟨fun a b => funext fun d => d.elim0⟩

/-- The word the tests compare against is +∞. -/
theorem inf_word : Ideal.ofBits .f32 0x7F800000#32 = (⊤ : EReal) := by simp [Ideal.ofBits, Ideal.ieee]

/-- One entry's test: |x| < +∞ fails at both infinities (|±∞| = +∞ is not below +∞) and holds at a real, so an entry that
    passes is a real number. -/
theorem real_of_test (x : EReal)
    (hx : FloatOps.cmpf (F := Ideal) (φ := .f32) .olt (FloatOps.hostAbsf (F := Ideal) (φ := .f32) x) (Ideal.ofBits .f32 0x7F800000#32) = 1#1) :
    ∃ r : ℝ, x = (r : EReal) := by
  rw [Ideal.hostAbsf_def, Ideal.cmpf_def, Ideal.absf_def, inf_word] at hx
  induction x using EReal.rec with
  | bot => simp [Ideal.cmp] at hx
  | coe r => exact ⟨r, rfl⟩
  | top => simp [Ideal.cmp] at hx

/-- One argument's test: the conjunction over all four axes of the entries' tests is true only if every entry is real. -/
theorem real_of_all (a : FVec Ideal S2x16x2048x64 .f32)
    (hb : S_.BroadcastsInDim S2x16x2048x64 (![] : Fin 0 → Fin S2x16x2048x64.rank))
    (hr : S2x16x2048x64.ReducesTo [0, 1, 2, 3] S_) (hu : 0 < S_.numel)
    (h : Host.reduce IntOp.andi
          (cmpf .olt (Host.absf a) (broadcastInDim S2x16x2048x64 ![] hb (constant (F := Ideal) S_ .f32 0x7F800000#32)))
          (constantI S_ 1 1#1) hr hu ValueIdx.ix0 = 1#1) :
    ∀ i, ∃ r : ℝ, a i = (r : EReal) := by
  intro i
  have e := Host.reduce_andi_all _ _ hr hu _ h i
  exact real_of_test (a i) e

theorem real_of_pre (a0 a1 a2 : FVec Ideal S2x16x2048x64 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all a0 _ _ _ h0', real_of_all a1 _ _ _ h1, real_of_all a2 _ _ _ h2⟩

end Cert.Pre_finite_inputs.Decode

end
-- ==== Proof.lean ====
/-
  Softmax attention (no max-subtraction, no scaling) over 32 independent (batch, head) slices of 2048 rows by 64 columns:
  the kernel against the jnp reference, on the extended reals.

  The kernel flattens the arguments to [32, 2048, ·], appends to the values a column of ones, and at each of the 64 grid
  points (slice bh, query tile qi) computes  ext = exp(q_tile · kᵀ) · vext  in two products and stores
  ext[:, 0..63] / ext[:, 64].  The reference computes  Σ_t (w[s,t] / Σ_t' w[s,t']) · v[t, d]  with  w = exp(q · kᵀ).
  Both are functions of real inputs only through positive real weights, so the row sum is a nonzero real and
      (Σ_t w·v) / (Σ_t w·1) = Σ_t (w / Σ w) · v        (Proof/Algebra.lean);
  this is where the precondition (every input finite) is used.

  The pieces: the two kernel programs run and keep their arguments (Proof/IdealFrame.lean, Proof/BitsFrame.lean); what a
  grid point stores, entry by entry (Proof/Payload.lean); the stored blocks tile the result, which is therefore one
  function of the arrays the launch reads (Proof/Blocks.lean); those arrays are the arguments' slices (Proof/HostSide.lean);
  the reference's result entry by entry (Proof/RefRead.lean); real entries from the precondition (Proof/Finite.lean);
  the program's result is the reference's array (Proof/KernelValue.lean).  Nothing was rewritten by the idealization, so
  the preservation claim is the trivial one.
-/
import proofs.«403997_j58085137711581_3_alg».proof.Defs
import proofs.«403997_j58085137711581_3_alg».proof.Proof.Gen.Kernel
import proofs.«403997_j58085137711581_3_alg».proof.Proof.Gen.KernelIdeal
import proofs.«403997_j58085137711581_3_alg».proof.Proof.Gen.ReferenceIdeal
import proofs.«403997_j58085137711581_3_alg».proof.Proof.Gen.Pre_finite_inputs
import proofs.«403997_j58085137711581_3_alg».proof.Proof.Gen.ReferenceIdeal.Run
import proofs.«403997_j58085137711581_3_alg».proof.Proof.Gen.ReferenceIdeal.Read
import proofs.«403997_j58085137711581_3_alg».proof.Proof.BitsFrame
import proofs.«403997_j58085137711581_3_alg».proof.Proof.IdealFrame
import proofs.«403997_j58085137711581_3_alg».proof.Proof.KernelValue
import proofs.«403997_j58085137711581_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's array of the (real) arguments. -/
theorem algebraic : Cert.algebraic_KernelIdeal_ReferenceIdeal := by
  intro m ρ m' ρ' hpre hagree
  refine ⟨fun c => Cert.Attn.refArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KernelIdeal.Blk.run_result m ρ)
    obtain ⟨hq, hk, hv⟩ := Cert.Pre_finite_inputs.Decode.real_of_pre _ _ _ (hpre c)
    exact Cert.KernelIdeal.Val.result_eq m c hq hk hv
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v6_eq]
    exact Cert.ReferenceIdeal.RefValue.ref_arr _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
